-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S640000x128 : Shape := ⟨2, ![640000, 128]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S256x128 .f32) (main_arg6 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : IVec S2x640000 32) (main_arg2 : FVec F S640000x128 .f32) (main_arg3 : FVec F S256x256 .f32) (main_arg4 : FVec F S256 .f32) (main_arg5 : FVec F S256x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S640000x128 .f32 := Host.absf main_arg2
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_v13 main_v16
-- ==== Kernel.lean ====
abbrev S50000x128 : Shape := ⟨2, ![50000, 128]⟩
abbrev S2x640000 : Shape := ⟨2, ![2, 640000]⟩
abbrev S640000x128 : Shape := ⟨2, ![640000, 128]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S2000x128 : Shape := ⟨2, ![2000, 128]⟩
abbrev S2000x256 : Shape := ⟨2, ![2000, 256]⟩
abbrev S1x256 : Shape := ⟨2, ![1, 256]⟩
abbrev S1x128 : Shape := ⟨2, ![1, 128]⟩

abbrev nBuf : Space → Nat
  | .hbm => 16
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S640000x128, .f32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S1x640000, .i32⟩
  | .hbm, ⟨8, _⟩ => ⟨S640000, .i32⟩
  | .hbm, ⟨9, _⟩ => ⟨S_, .f32⟩
  | .hbm, ⟨10, _⟩ => ⟨S50000x128, .f32⟩
  | .hbm, ⟨11, _⟩ => ⟨S640000x1, .i32⟩
  | .hbm, ⟨12, _⟩ => ⟨S50000x128, .f32⟩
  | .hbm, ⟨13, _⟩ => ⟨S256x256, .bf16⟩
  | .hbm, ⟨14, _⟩ => ⟨S256x128, .bf16⟩
  | .hbm, ⟨15, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S256x256, .bf16⟩
  | .local _ .vmem, ⟨5, _⟩ => ⟨S256, .f32⟩
  | .local _ .vmem, ⟨6, _⟩ => ⟨S256x128, .bf16⟩
  | .local _ .vmem, ⟨7, _⟩ => ⟨S128, .f32⟩
  | .local _ .vmem, ⟨8, _⟩ => ⟨S2000x128, .f32⟩
  | .local _ .vmem, ⟨9, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x640000_S1x640000_0_0 : S2x640000.Slices ![0, 0] S1x640000
  shapeCasts_S1x640000_S640000 : S1x640000.ShapeCasts S640000
  bcast_S_S50000x128 : S_.BroadcastsInDim S50000x128 (![] : Fin 0 → Fin S50000x128.rank)
  bcast_S640000_S640000x1_0 : S640000.BroadcastsInDim S640000x1 (![0] : Fin 1 → Fin S640000x1.rank)
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  concatenates_S2000x128_S2000x128_S2000x256_d1 : Shape.Concatenates [S2000x128, S2000x128] S2000x256 1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  scatter_S50000x128_S640000x1_S640000x128_1_0_0_1_wf : ScatterDims.WF S50000x128 S640000x1 S640000x128 [1] [0] [0] 1
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .bf16 = 32 ∨ (Rect.block (s := S256x128) S256x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)

variable [Facts₀]

def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S640000x128 : Shape := ⟨2, ![640000, 128]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S50000x256 : Shape := ⟨2, ![50000, 256]⟩
abbrev S1x256 : Shape := ⟨2, ![1, 256]⟩
abbrev S1x128 : Shape := ⟨2, ![1, 128]⟩

abbrev nBuf : Space → Nat
  | .hbm => 22
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S640000x128, .f32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S1x640000, .i32⟩
  | .hbm, ⟨8, _⟩ => ⟨S640000, .i32⟩
  | .hbm, ⟨9, _⟩ => ⟨S_, .f32⟩
  | .hbm, ⟨10, _⟩ => ⟨S50000x128, .f32⟩
  | .hbm, ⟨11, _⟩ => ⟨S640000x1, .i32⟩
  | .hbm, ⟨12, _⟩ => ⟨S50000x128, .f32⟩
  | .hbm, ⟨13, _⟩ => ⟨S50000x256, .f32⟩
  | .hbm, ⟨14, _⟩ => ⟨S50000x256, .f32⟩
  | .hbm, ⟨15, _⟩ => ⟨S1x256, .f32⟩
  | .hbm, ⟨16, _⟩ => ⟨S50000x256, .f32⟩
  | .hbm, ⟨17, _⟩ => ⟨S50000x256, .f32⟩
  | .hbm, ⟨18, _⟩ => ⟨S50000x128, .f32⟩
  | .hbm, ⟨19, _⟩ => ⟨S1x128, .f32⟩
  | .hbm, ⟨20, _⟩ => ⟨S50000x128, .f32⟩
  | .hbm, ⟨21, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  bcast_S_S50000x128 : S_.BroadcastsInDim S50000x128 (![] : Fin 0 → Fin S50000x128.rank)
  bcast_S640000_S640000x1_0 : S640000.BroadcastsInDim S640000x1 (![0] : Fin 1 → Fin S640000x1.rank)
  concatenates_S50000x128_S50000x128_S50000x256_d1 : Shape.Concatenates [S50000x128, S50000x128] S50000x256 1
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000x128_S640000x1_S640000x128_1_0_0_1_wf : ScatterDims.WF S50000x128 S640000x1 S640000x128 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []

variable [Facts₀]

def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.MlpSpec.lean ====
/-
  The function both programs compute, stated once over literal shapes.

  A node's input row is its own 128 features followed by the 128 aggregated edge features of the edges that
  leave it. The layer then applies two affine maps with no nonlinearity between them:
      hidden[h] = (∑ k < 256, row[k] · W1[k, h]) + b1[h]
      out[q]    = (∑ h < 256, hidden[h] · W2[h, q]) + b2[q].
  On the extended reals a change of float format is the identity, so the narrowing of the matmul operands to
  bf16 leaves this formula as it is. The two programs write these same sums: no sum is regrouped and
  no factor is moved across a sum, so no law that needs finiteness is used anywhere below.

  Besides the formula, this module reads two layout operations at an index, for any number of rows (the kernel
  meets them on a block of 2000 rows, the reference on all 50000): the concatenation of two 128-column arrays
  along the columns, and a bias vector laid out as one row and repeated down the rows.
-/
import Idealize.ShloMosaic.PureOps.Ideal
import Idealize.ShloMosaic.Lib.ValueIdx
import Idealize.ShloMosaic.Lib.ValueLayout
import Idealize.ShloMosaic.Lib.Pipeline.Value

noncomputable section

open scoped BigOperators

namespace Cert.Mlp

open Idealize.ShloMosaic Idealize.ShloMosaic.ValueIdx

/-- Row `r` of the layer's input, read at column `k < 256`: the first array's row for `k < 128`, the second
    array's row at column `k - 128` from there on. -/
def catRow {n : Nat} (a b : (⟨2, ![n, 128]⟩ : Shape).Idx → EReal) (r : Fin n) (k : Fin 256) : EReal :=
  if h : k.val < 128 then a (ix2 r ⟨k.val, h⟩)
  else b (ix2 r ⟨k.val - 128, by have := k.isLt; omega⟩)

/-- The two affine maps applied to one input row `x`, read at output column `q`. -/
def mlpRow (x : Fin 256 → EReal) (W1 : (⟨2, ![256, 256]⟩ : Shape).Idx → EReal) (b1 : (⟨1, ![256]⟩ : Shape).Idx → EReal)
    (W2 : (⟨2, ![256, 128]⟩ : Shape).Idx → EReal) (b2 : (⟨1, ![128]⟩ : Shape).Idx → EReal) (q : Fin 128) : EReal :=
  (∑ h : Fin 256, ((∑ k : Fin 256, x k * W1 (ix2 k h)) + b1 (ix1 h)) * W2 (ix2 h q)) + b2 (ix1 q)

/-- The whole result: entry `(r, q)` is the layer applied to node `r`'s input row, at column `q`. -/
def mlpOut (nf agg : (⟨2, ![50000, 128]⟩ : Shape).Idx → EReal) (W1 : (⟨2, ![256, 256]⟩ : Shape).Idx → EReal)
    (b1 : (⟨1, ![256]⟩ : Shape).Idx → EReal) (W2 : (⟨2, ![256, 128]⟩ : Shape).Idx → EReal)
    (b2 : (⟨1, ![128]⟩ : Shape).Idx → EReal) : (⟨2, ![50000, 128]⟩ : Shape).Idx → EReal :=
  fun i => mlpRow (catRow nf agg (i 0)) W1 b1 W2 b2 (i 1)

/-- Two `[n, 128]` arrays joined along the columns, read at `(r, k)`, give the input row's entry `k`: the
    column falls in the first piece below 128 and in the second, 128 columns further on, from there. -/
theorem concat_cols_apply {n : Nat} (a b : (⟨2, ![n, 128]⟩ : Shape).Idx → EReal)
    (h : Shape.Concatenates [(⟨2, ![n, 128]⟩ : Shape), (⟨2, ![n, 128]⟩ : Shape)] (⟨2, ![n, 256]⟩ : Shape) 1)
    (r : Fin n) (k : Fin 256) :
    concatenate (⟨2, ![n, 256]⟩ : Shape) 1 [⟨(⟨2, ![n, 128]⟩ : Shape), a⟩, ⟨(⟨2, ![n, 128]⟩ : Shape), b⟩] h (ix2 r k)
      = catRow a b r k := by
  unfold catRow
  split
  · next hk =>
    exact concatenate_pair_apply_left (1 : Fin (⟨2, ![n, 256]⟩ : Shape).rank) a b h (ix2 r k) rfl (ix2 r ⟨k.val, hk⟩)
      (fun c => match c with | ⟨0, _⟩ => rfl | ⟨1, _⟩ => rfl)
  · next hk =>
    exact concatenate_pair_apply_right (1 : Fin (⟨2, ![n, 256]⟩ : Shape).rank) a b h (ix2 r k) rfl rfl
      (ix2 r ⟨k.val - 128, by have := k.isLt; omega⟩)
      (fun c => match c with | ⟨0, _⟩ => fun _ => rfl | ⟨1, _⟩ => fun hne => absurd rfl hne)
      (by show k.val - 128 + 128 = k.val; omega)

/-- A bias vector cast to one row and repeated down `a` rows reads, at `(p, c)`, the vector's entry `c`. -/
theorem bias_rows_apply {a b : Nat} (v : (⟨1, ![b]⟩ : Shape).Idx → EReal)
    (h1 : (⟨1, ![b]⟩ : Shape).ShapeCasts ⟨2, ![1, b]⟩) (h2 : (⟨2, ![1, b]⟩ : Shape).Broadcasts ⟨2, ![a, b]⟩)
    (p : Fin a) (c : Fin b) :
    broadcastTo (⟨2, ![a, b]⟩ : Shape) (shapeCast (⟨2, ![1, b]⟩ : Shape) v h1) h2 (ix2 p c) = v (ix1 c) := by
  rw [broadcastTo_1b_ab_apply, shapeCast_a_1a_apply]

end Cert.Mlp

end
-- ==== Proof.RefIsSpec.lean ====
/-
  The reference computes the specification. Its program is, operation by operation: the aggregated edge features
  (one scatter-add, kept whole here as the array `agg`), the concatenation with the node features, a product
  with `W1`, the bias `b1` repeated down the rows, a product with `W2`, and the bias `b2`. Read at an
  index `(r, q)`, each product is a sum over the 256 contracted columns and each bias its entry at the column,
  which is the specification's row formula on the row `(node features of r, agg of r)`.
-/
import proofs.«123262_j14499809591359_1_alg».proof.Proof.Gen.ReferenceIdeal.Read
import proofs.«123262_j14499809591359_1_alg».proof.Proof.MlpSpec

noncomputable section

open scoped BigOperators

namespace Cert.Mlp.Reference

open Cert.ReferenceIdeal Cert.ReferenceIdeal.Gen Cert.ReferenceIdeal.Read Idealize.ShloMosaic Idealize.ShloMosaic.ValueIdx

/-- At `(r, h)` the first product's left operand is read at `(r, k)`. -/
theorem lidx6_eq (r : Fin 50000) (h k : Fin 256) : lidx_main_v6 (ix2 r h) k = ix2 r k :=
  funext fun a => Fin.ext (by match a with | ⟨0, _⟩ => rfl | ⟨1, _⟩ => rfl)
/-- At `(r, h)` the first product's right operand is read at `(k, h)`. -/
theorem ridx6_eq (r : Fin 50000) (h k : Fin 256) : ridx_main_v6 (ix2 r h) k = ix2 k h :=
  funext fun a => Fin.ext (by match a with | ⟨0, _⟩ => rfl | ⟨1, _⟩ => rfl)
/-- At `(r, q)` the second product's left operand is read at `(r, h)`. -/
theorem lidx10_eq (r : Fin 50000) (q : Fin 128) (h : Fin 256) : lidx_main_v10 (ix2 r q) h = ix2 r h :=
  funext fun a => Fin.ext (by match a with | ⟨0, _⟩ => rfl | ⟨1, _⟩ => rfl)
/-- At `(r, q)` the second product's right operand is read at `(h, q)`. -/
theorem ridx10_eq (r : Fin 50000) (q : Fin 128) (h : Fin 256) : ridx_main_v10 (ix2 r q) h = ix2 h q :=
  funext fun a => Fin.ext (by match a with | ⟨0, _⟩ => rfl | ⟨1, _⟩ => rfl)
/-- The first bias, broadcast twice, is read at the column. -/
theorem bias1_idx (r : Fin 50000) (h : Fin 256) : idx_main_v7 (idx_main_v8 (ix2 r h)) = ix1 h :=
  funext fun a => Fin.ext (by match a with | ⟨0, _⟩ => rfl)
/-- The second bias, broadcast twice, is read at the column. -/
theorem bias2_idx (r : Fin 50000) (q : Fin 128) : idx_main_v11 (idx_main_v12 (ix2 r q)) = ix1 q :=
  funext fun a => Fin.ext (by match a with | ⟨0, _⟩ => rfl)

/-- The hidden layer at `(r, h)`: the row's product with column `h` of `W1`, plus `b1 h`. -/
theorem hidden_apply (x0 : (⟨S50000x128, .f32⟩ : BufTy).Contents (Elt Ideal)) (x1 : (⟨S2x640000, .i32⟩ : BufTy).Contents (Elt Ideal))
    (x2 : (⟨S640000x128, .f32⟩ : BufTy).Contents (Elt Ideal)) (x3 : (⟨S256x256, .f32⟩ : BufTy).Contents (Elt Ideal))
    (x4 : (⟨S256, .f32⟩ : BufTy).Contents (Elt Ideal)) (r : Fin 50000) (h : Fin 256) :
    val_main_v9 (F := Ideal) x0 x1 x2 x3 x4 (ix2 r h)
      = (∑ k : Fin 256, Cert.Mlp.catRow x0 (val_main_v4 (F := Ideal) x1 x2) r k * x3 (ix2 k h)) + x4 (ix1 h) := by
  rw [val_main_v9_apply, val_main_v6_apply, val_main_v8_apply, val_main_v7_apply, bias1_idx]
  refine congrArg (· + x4 (ix1 h)) (Finset.sum_congr rfl fun k _ => ?_)
  rw [lidx6_eq, ridx6_eq]
  unfold val_main_v5
  rw [Cert.Mlp.concat_cols_apply]

/-- THE REFERENCE'S RESULT is the specification of its arguments, the aggregated edge features being the
    reference's own scatter-add term. -/
theorem result_eq (x0 : (⟨S50000x128, .f32⟩ : BufTy).Contents (Elt Ideal)) (x1 : (⟨S2x640000, .i32⟩ : BufTy).Contents (Elt Ideal))
    (x2 : (⟨S640000x128, .f32⟩ : BufTy).Contents (Elt Ideal)) (x3 : (⟨S256x256, .f32⟩ : BufTy).Contents (Elt Ideal))
    (x4 : (⟨S256, .f32⟩ : BufTy).Contents (Elt Ideal)) (x5 : (⟨S256x128, .f32⟩ : BufTy).Contents (Elt Ideal))
    (x6 : (⟨S128, .f32⟩ : BufTy).Contents (Elt Ideal)) :
    val_main_v13 (F := Ideal) x0 x1 x2 x3 x4 x5 x6
      = Cert.Mlp.mlpOut x0 (val_main_v4 (F := Ideal) x1 x2) x3 x4 x5 x6 := by
  funext i
  obtain ⟨r, q, rfl⟩ : ∃ (r : Fin 50000) (q : Fin 128), i = ix2 r q := ⟨i 0, i 1, eq_ix2 i⟩
  rw [val_main_v13_apply, val_main_v10_apply, val_main_v12_apply, val_main_v11_apply, bias2_idx]
  unfold Cert.Mlp.mlpOut Cert.Mlp.mlpRow
  refine congrArg (· + x6 (ix1 q)) (Finset.sum_congr rfl fun h _ => ?_)
  rw [lidx10_eq, ridx10_eq]
  exact congrArg (· * x5 (ix2 h q)) (hidden_apply x0 x1 x2 x3 x4 r h)

end Cert.Mlp.Reference

end
-- ==== Proof.BodyAtIndex.lean ====
/-
  The kernel's body at one entry of its output block. On a block of 2000 nodes the body joins the node features'
  block and the aggregated features' block along the columns, narrows the result to bf16 (no change on the extended
  reals), multiplies by `W1` into a zero accumulator, adds `b1` repeated down the rows, narrows again,
  multiplies by `W2` into a zero accumulator and adds `b2`. At entry `(p, q)` of the block each product is
  the sum over the 256 contracted columns, so the entry is the specification's row formula on row `p` of the
  two joined blocks.
-/
import proofs.«123262_j14499809591359_1_alg».proof.Proof.Gen.KernelIdeal.Skeleton
import proofs.«123262_j14499809591359_1_alg».proof.Proof.MlpSpec
import Idealize.ShloMosaic.PureOps.Ideal.Laws

noncomputable section

open scoped BigOperators

namespace Cert.Mlp.Body

open Cert.KernelIdeal Cert.KernelIdeal.Gen Idealize.ShloMosaic Idealize.ShloMosaic.ValueIdx

/-! ## The first product's operand indices, axis by axis -/

theorem lhs_mm1_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs_mm1_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhs_mm1_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhs_mm1_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The block's first product into a zero accumulator, at `(p, h)`: the sum over the contracted column `k` of
    the left operand at `(p, k)` times the right at `(k, h)`. -/
theorem mm1_apply (l : FVec Ideal S2000x256 .bf16) (r : FVec Ideal S256x256 .bf16) (p : Fin 2000) (h : Fin 256) :
    matmul dot_S2000x256_S256x256_S2000x256_1_0_0_1_n_n none l r (constant S2000x256 .f32 0x00000000#32) (ix2 p h)
      = ∑ k : Fin 256, l (ix2 p k) * r (ix2 k h) := by
  simp only [matmul]
  rw [Ideal.matmul_constant_zero_apply, ← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 p h) ((ValueIdx.contrEquiv1 dot_S2000x256_S256x256_S2000x256_1_0_0_1_n_n 256 rfl rfl).symm k) = ix2 p k := funext fun a => Fin.ext (by
    match a with
    | ⟨0, _⟩ => exact lhs_mm1_0 _ _
    | ⟨1, _⟩ => exact (lhs_mm1_1 _ _).trans hk)
  have er : dot_S2000x256_S256x256_S2000x256_1_0_0_1_n_n.rhsIdx (ix2 p h) ((ValueIdx.contrEquiv1 dot_S2000x256_S256x256_S2000x256_1_0_0_1_n_n 256 rfl rfl).symm k) = ix2 k h := funext fun a => Fin.ext (by
    match a with
    | ⟨0, _⟩ => exact (rhs_mm1_0 _ _).trans hk
    | ⟨1, _⟩ => exact rhs_mm1_1 _ _)
  rw [el, er]

/-! ## The second product's operand indices, axis by axis -/

theorem lhs_mm2_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhs_mm2_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
theorem rhs_mm2_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem rhs_mm2_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The block's second product into a zero accumulator, at `(p, q)`: the sum over the contracted column `h`
    of the left operand at `(p, h)` times the right at `(h, q)`. -/
theorem mm2_apply (l : FVec Ideal S2000x256 .bf16) (r : FVec Ideal S256x128 .bf16) (p : Fin 2000) (q : Fin 128) :
    matmul dot_S2000x256_S256x128_S2000x128_1_0_0_1_n_n none l r (constant S2000x128 .f32 0x00000000#32) (ix2 p q)
      = ∑ h : Fin 256, l (ix2 p h) * r (ix2 h q) := by
  simp only [matmul]
  rw [Ideal.matmul_constant_zero_apply, ← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx (ix2 p q) ((ValueIdx.contrEquiv1 dot_S2000x256_S256x128_S2000x128_1_0_0_1_n_n 256 rfl rfl).symm k) = ix2 p k := funext fun a => Fin.ext (by
    match a with
    | ⟨0, _⟩ => exact lhs_mm2_0 _ _
    | ⟨1, _⟩ => exact (lhs_mm2_1 _ _).trans hk)
  have er : dot_S2000x256_S256x128_S2000x128_1_0_0_1_n_n.rhsIdx (ix2 p q) ((ValueIdx.contrEquiv1 dot_S2000x256_S256x128_S2000x128_1_0_0_1_n_n 256 rfl rfl).symm k) = ix2 k q := funext fun a => Fin.ext (by
    match a with
    | ⟨0, _⟩ => exact (rhs_mm2_0 _ _).trans hk
    | ⟨1, _⟩ => exact rhs_mm2_1 _ _)
  rw [el, er]

/-! ## The body's stored value at an entry -/

/-- THE BODY'S VALUE at entry `(p, q)` of the output block is the specification's row formula on row `p` of
    the node-feature block joined with the aggregated-feature block, with the weights and biases as loaded. -/
theorem pay_apply (v0 v1 : FVec Ideal S2000x128 .f32) (v5 : FVec Ideal S256x256 .bf16) (v8 : FVec Ideal S256 .f32)
    (v13 : FVec Ideal S256x128 .bf16) (v16 : FVec Ideal S128 .f32) (p : Fin 2000) (q : Fin 128) :
    k0_pay1 (F := Ideal) v0 v1 v5 v8 v13 v16 (ix2 p q)
      = Cert.Mlp.mlpRow (Cert.Mlp.catRow v0 v1 p) v5 v8 v13 v16 q := by
  unfold k0_pay1 Cert.Mlp.mlpRow
  rw [shapeCast_self, shapeCast_self, shapeCast_self]
  refine (addf_apply _ _ _).trans ?_
  rw [mm2_apply, Cert.Mlp.bias_rows_apply]
  refine congrArg (· + v16 (ix1 q)) (Finset.sum_congr rfl fun h _ => ?_)
  refine congrArg (· * v13 (ix2 h q)) ?_
  refine (truncf_apply (φ := .f32) (ψ := .bf16) _ bitsLt_bf16_f32 _).trans ?_
  refine (addf_apply _ _ _).trans ?_
  rw [mm1_apply, Cert.Mlp.bias_rows_apply]
  refine congrArg (· + v8 (ix1 h)) (Finset.sum_congr rfl fun k _ => ?_)
  refine congrArg (· * v5 (ix2 k h)) ?_
  refine (truncf_apply (φ := .f32) (ψ := .bf16) _ bitsLt_bf16_f32 _).trans ?_
  exact Cert.Mlp.concat_cols_apply v0 v1 _ p k

end Cert.Mlp.Body

end
-- ==== Proof.BlocksToArray.lean ====
/-
  From the kernel's blocks to its result array. The grid has 25 points; at point `t` the body sees rows
  `2000 t … 2000 t + 1999` of the node features and of the aggregated features, and the two weight arrays and
  the two biases whole; it writes rows `2000 t … 2000 t + 1999` of the result. Row `p` of the two joined
  blocks is therefore row `2000 t + p` of the two joined arrays, so what point `t` writes back is block `t`
  of the specification evaluated on the arrays as the region finds them. The 25 blocks cover all 50000 rows
  (row `r` lies in block `r / 2000`), so after the run the result array is the specification.
-/
import proofs.«123262_j14499809591359_1_alg».proof.Proof.Gen.KernelIdeal.Value
import proofs.«123262_j14499809591359_1_alg».proof.Proof.BodyAtIndex
import Idealize.ShloMosaic.Lib.Pipeline.Value

noncomputable section

open scoped BigOperators

namespace Cert.Mlp.Kernel

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-! ## The arrays the region finds, and the blocks the body sees, at their literal types -/

abbrev nfArr (c : Dev nD) : FVec Ideal S50000x128 .f32 := V m c main_arg0
abbrev aggArr (c : Dev nD) : FVec Ideal S50000x128 .f32 := V m c main_v4
abbrev w1Arr (c : Dev nD) : FVec Ideal S256x256 .bf16 := V m c main_v5
abbrev b1Arr (c : Dev nD) : FVec Ideal S256 .f32 := V m c main_arg4
abbrev w2Arr (c : Dev nD) : FVec Ideal S256x128 .bf16 := V m c main_v6
abbrev b2Arr (c : Dev nD) : FVec Ideal S128 .f32 := V m c main_arg6

abbrev nfBlk (c : Dev nD) (t : Fin cfg0.N) : FVec Ideal S2000x128 .f32 := iblk m c 0 t
abbrev aggBlk (c : Dev nD) (t : Fin cfg0.N) : FVec Ideal S2000x128 .f32 := iblk m c 1 t
abbrev w1Blk (c : Dev nD) (t : Fin cfg0.N) : FVec Ideal S256x256 .bf16 := iblk m c 2 t
abbrev b1Blk (c : Dev nD) (t : Fin cfg0.N) : FVec Ideal S256 .f32 := iblk m c 3 t
abbrev w2Blk (c : Dev nD) (t : Fin cfg0.N) : FVec Ideal S256x128 .bf16 := iblk m c 4 t
abbrev b2Blk (c : Dev nD) (t : Fin cfg0.N) : FVec Ideal S128 .f32 := iblk m c 5 t

/-- The result array the kernel is to leave: the specification of the arrays as the region finds them. -/
abbrev outArr (c : Dev nD) : FVec Ideal S50000x128 .f32 :=
  Cert.Mlp.mlpOut (nfArr m c) (aggArr m c) (w1Arr m c) (b1Arr m c) (w2Arr m c) (b2Arr m c)

/-! ## The index maps over the grid -/

/-- At point `t` the two row-blocked inputs and the output are at block row `t`, column block 0; the weights and
    the biases are at block 0 on every axis. Decided over the 25 points. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

theorem t_lt (t : Fin cfg0.N) : t.val < 25 := Nat.lt_of_lt_of_eq t.isLt N_0

/-! ## Each block as rows of its array -/

/-- Entry `(p, k)` of the node features' block at point `t` is entry `(2000 t + p, k)` of the array. -/
theorem nf_block (c : Dev nD) (t : Fin cfg0.N) (p : Fin 2000) (k : Fin 128) (r : Fin 50000) (hr : r.val = 2000 * t.val + p.val) :
    nfBlk m c t (ix2 p k) = nfArr m c (ix2 r k) := by
  show iblk m c 0 t (ix2 p k) = V m c main_arg0 (ix2 r k)
  unfold iblk
  rw [View.read_apply]
  show V m c main_arg0 _ = V m c main_arg0 _
  congr 1
  funext a
  apply Fin.ext
  obtain ⟨e0, e1, -⟩ := idx_facts t
  match a with
  | ⟨0, _⟩ => show win0_0.index t (0 : Fin 2) * 2000 + 1 * p.val = r.val; rw [e0, hr]; omega
  | ⟨1, _⟩ => show win0_0.index t (1 : Fin 2) * 128 + 1 * k.val = k.val; rw [e1]; omega

/-- The same for the aggregated features' block. -/
theorem agg_block (c : Dev nD) (t : Fin cfg0.N) (p : Fin 2000) (k : Fin 128) (r : Fin 50000) (hr : r.val = 2000 * t.val + p.val) :
    aggBlk m c t (ix2 p k) = aggArr m c (ix2 r k) := by
  show iblk m c 1 t (ix2 p k) = V m c main_v4 (ix2 r k)
  unfold iblk
  rw [View.read_apply]
  show V m c main_v4 _ = V m c main_v4 _
  congr 1
  funext a
  apply Fin.ext
  obtain ⟨-, -, e0, e1, -⟩ := idx_facts t
  match a with
  | ⟨0, _⟩ => show win0_1.index t (0 : Fin 2) * 2000 + 1 * p.val = r.val; rw [e0, hr]; omega
  | ⟨1, _⟩ => show win0_1.index t (1 : Fin 2) * 128 + 1 * k.val = k.val; rw [e1]; omega

/-- Row `p` of the two joined blocks is row `2000 t + p` of the two joined arrays. -/
theorem row_block (c : Dev nD) (t : Fin cfg0.N) (p : Fin 2000) (r : Fin 50000) (hr : r.val = 2000 * t.val + p.val) :
    Cert.Mlp.catRow (nfBlk m c t) (aggBlk m c t) p = Cert.Mlp.catRow (nfArr m c) (aggArr m c) r := by
  funext k
  unfold Cert.Mlp.catRow
  split
  · exact nf_block m c t p _ r hr
  · exact agg_block m c t p _ r hr

/-- The first weight array's block is the whole array at every point. -/
theorem w1_block (c : Dev nD) (t : Fin cfg0.N) : w1Blk m c t = w1Arr m c := by
  funext j
  show iblk m c 2 t j = V m c main_v5 j
  unfold iblk
  rw [View.read_apply]
  show V m c main_v5 _ = V m c main_v5 _
  congr 1
  funext a
  apply Fin.ext
  obtain ⟨-, -, -, -, e0, e1, -⟩ := idx_facts t
  match a with
  | ⟨0, _⟩ => show win0_2.index t (0 : Fin 2) * 256 + 1 * (j 0).val = (j 0).val; rw [e0]; omega
  | ⟨1, _⟩ => show win0_2.index t (1 : Fin 2) * 256 + 1 * (j 1).val = (j 1).val; rw [e1]; omega

/-- The first bias' block is the whole vector at every point. -/
theorem b1_block (c : Dev nD) (t : Fin cfg0.N) : b1Blk m c t = b1Arr m c := by
  funext j
  show iblk m c 3 t j = V m c main_arg4 j
  unfold iblk
  rw [View.read_apply]
  show V m c main_arg4 _ = V m c main_arg4 _
  congr 1
  funext a
  apply Fin.ext
  obtain ⟨-, -, -, -, -, -, e0, -⟩ := idx_facts t
  match a with
  | ⟨0, _⟩ => show win0_3.index t (0 : Fin 1) * 256 + 1 * (j 0).val = (j 0).val; rw [e0]; omega

/-- The second weight array's block is the whole array at every point. -/
theorem w2_block (c : Dev nD) (t : Fin cfg0.N) : w2Blk m c t = w2Arr m c := by
  funext j
  show iblk m c 4 t j = V m c main_v6 j
  unfold iblk
  rw [View.read_apply]
  show V m c main_v6 _ = V m c main_v6 _
  congr 1
  funext a
  apply Fin.ext
  obtain ⟨-, -, -, -, -, -, -, e0, e1, -⟩ := idx_facts t
  match a with
  | ⟨0, _⟩ => show win0_4.index t (0 : Fin 2) * 256 + 1 * (j 0).val = (j 0).val; rw [e0]; omega
  | ⟨1, _⟩ => show win0_4.index t (1 : Fin 2) * 128 + 1 * (j 1).val = (j 1).val; rw [e1]; omega

/-- The second bias' block is the whole vector at every point. -/
theorem b2_block (c : Dev nD) (t : Fin cfg0.N) : b2Blk m c t = b2Arr m c := by
  funext j
  show iblk m c 5 t j = V m c main_arg6 j
  unfold iblk
  rw [View.read_apply]
  show V m c main_arg6 _ = V m c main_arg6 _
  congr 1
  funext a
  apply Fin.ext
  obtain ⟨-, -, -, -, -, -, -, -, -, e0, -⟩ := idx_facts t
  match a with
  | ⟨0, _⟩ => show win0_5.index t (0 : Fin 1) * 128 + 1 * (j 0).val = (j 0).val; rw [e0]; omega

/-! ## What a point writes back -/

/-- Entry `(p, q)` of the output's block at point `t` sits at `(2000 t + p, q)` in the result array. -/
theorem out_emb (t : Fin cfg0.N) (p : Fin 2000) (q : Fin 128) (r : Fin 50000) (hr : r.val = 2000 * t.val + p.val) :
    ((cfg0.win 6).blk t).view.emb (ix2 p q) = (ix2 r q : S50000x128.Idx) := by
  funext a
  apply Fin.ext
  obtain ⟨-, -, -, -, -, -, -, -, -, -, e0, e1⟩ := idx_facts t
  match a with
  | ⟨0, _⟩ => show win0_6.index t (0 : Fin 2) * 2000 + 1 * p.val = r.val; rw [e0, hr]; omega
  | ⟨1, _⟩ => show win0_6.index t (1 : Fin 2) * 128 + 1 * q.val = q.val; rw [e1]; omega

/-- WHAT POINT `t` WRITES BACK is block `t` of the specification of the arrays as the region finds them. -/
theorem flushed_eq (c : Dev nD) (t : Fin cfg0.N) :
    (dats m 0 c).flushed 6 t = ((cfg0.win 6).blk t).view.read (Elt Ideal) (outArr m c) := by
  rw [Value.flushed6]
  unfold out0_6
  rw [View.canon_unit_zero hz2]
  simp only [View.ld_unit_zero (S := S2000x128) hz2, View.ld_unit_zero (S := S256x256) hz2, View.ld_unit_zero (S := S256) hz1,
    View.ld_unit_zero (S := S256x128) hz2, View.ld_unit_zero (S := S128) hz1]
  funext j
  obtain ⟨p, q, rfl⟩ : ∃ (p : Fin 2000) (q : Fin 128), j = ix2 p q := ⟨j 0, j 1, eq_ix2 (n0 := 2000) (n1 := 128) j⟩
  have ht := t_lt t
  have hp := p.isLt
  rw [View.read_apply, out_emb t p q ⟨2000 * t.val + p.val, by omega⟩ rfl]
  show k0_pay1 (F := Ideal) (nfBlk m c t) (aggBlk m c t) (w1Blk m c t) (b1Blk m c t) (w2Blk m c t) (b2Blk m c t) (ix2 p q)
    = Cert.Mlp.mlpRow (Cert.Mlp.catRow (nfArr m c) (aggArr m c) ⟨2000 * t.val + p.val, by omega⟩) (w1Arr m c) (b1Arr m c) (w2Arr m c) (b2Arr m c) q
  rw [Cert.Mlp.Body.pay_apply, w1_block, b1_block, w2_block, b2_block,
    row_block m c t p ⟨2000 * t.val + p.val, by omega⟩ rfl]

/-! ## The blocks cover the array -/

/-- An index of the result array is in point `t`'s block iff each coordinate is in the block's range on its axis. -/
theorem mem_blk (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v7).slice (win0_6.rect t)).set ↔ _
  rw [View.set_slice_whole, Rect.mem_set_unit]
  exact Iff.rfl

/-- Every index of the result array is in some point's block: row `r` is in block `r / 2000`. -/
theorem cover (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ : ∃ t : Fin cfg0.N, t.val = (i 0).val / 2000 :=
    ⟨⟨(i 0).val / 2000, by rw [show cfg0.N = 25 from N_0]; omega⟩, rfl⟩
  obtain ⟨-, -, -, -, -, -, -, -, -, -, e0, e1⟩ := idx_facts t
  refine ⟨t, flush0_6 t, ?_⟩
  rw [mem_blk]
  intro a
  match a with
  | ⟨0, _⟩ =>
    show win0_6.index t (0 : Fin 2) * 2000 ≤ (i 0).val ∧ (i 0).val < win0_6.index t (0 : Fin 2) * 2000 + 2000
    rw [e0, ht]; omega
  | ⟨1, _⟩ =>
    show win0_6.index t (1 : Fin 2) * 128 ≤ (i 1).val ∧ (i 1).val < win0_6.index t (1 : Fin 2) * 128 + 128
    rw [e1]; omega

/-! ## The array after the run, and the run -/

/-- After the run the result array is the specification of the arrays as the region finds them. -/
theorem final (c : Dev nD) : (dats m 0 c).arrAt 6 cfg0.N = outArr m c :=
  (dats m 0 c).arrAt_eq_of_cover 6 (outArr m c) (fun t _ => flushed_eq m c t) cover

/-- The kernel's run re-posted: the result array at the specification, the arguments unchanged. -/
theorem run : θ_run defs (onTc (τ := τ) (main (F := Ideal))) ⟨m, fun _ => 0, ρ⟩ fun r => ∀ c : Dev nD,
      r.2.mem ((c : Thread nD τ).loc main_v7) = outArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.Mlp.Kernel

end
-- ==== Proof.EntryArrays.lean ====
/-
  The arrays the kernel's region finds when it is entered, as functions of the program's arguments. Eight host
  operations run before the region: they slice the source-node row out of the edge index, build the zero
  array, scatter-add the edge features onto their source nodes, and narrow the two weight arrays to bf16.
  On the extended reals the narrowing changes nothing, so the region's weight arrays ARE the weight arguments;
  the node features and the two biases are untouched arguments; the aggregated features are the scatter-add's
  result, which is kept as one whole term: the reference applies the same operation to the same operands.
-/
import proofs.«123262_j14499809591359_1_alg».proof.Proof.Gen.KernelIdeal.Frame
import Idealize.ShloMosaic.Lib.StableHlo.Run
import Idealize.ShloMosaic.PureOps.Ideal

noncomputable section

namespace Cert.Mlp.Entry

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- The aggregated edge features: each edge's 128 features added onto the row of the edge's source node (row 0 of
    the edge index), starting from the zero array. -/
def aggOf (x1 : (⟨S2x640000, .i32⟩ : BufTy).Contents (Elt Ideal)) (x2 : (⟨S640000x128, .f32⟩ : BufTy).Contents (Elt Ideal)) :
    (⟨S50000x128, .f32⟩ : BufTy).Contents (Elt Ideal) :=
  Host.scatterAdd scatter_S50000x128_S640000x1_S640000x128_1_0_0_1
    (broadcastInDim S50000x128 ![] bcast_S_S50000x128 (constant (F := Ideal) S_ .f32 0x00000000#32))
    (broadcastInDim S640000x1 ![0] bcast_S640000_S640000x1_0
      (shapeCast _ (extractStridedSlice S1x640000 ![0, 0] x1 slices_S2x640000_S1x640000_0_0) shapeCasts_S1x640000_S640000))
    x2

/-- The region's second operand is the aggregated edge features of the edge index and the edge features as launched. -/
theorem agg_entry (c : Dev nD) :
    (V m c main_v4 : S50000x128.Idx → EReal)
      = aggOf (m ((c : Thread nD τ).loc main_arg1)) (m ((c : Thread nD τ).loc main_arg2)) := by
  dsimp only [V, hostOps0]
  after_results
  rfl

/-- The region's first weight array is the first weight argument: narrowing to bf16 is the identity on extended reals. -/
theorem w1_entry (c : Dev nD) :
    (V m c main_v5 : S256x256.Idx → EReal) = (m ((c : Thread nD τ).loc main_arg3) : S256x256.Idx → EReal) := by
  dsimp only [V, hostOps0]
  after_results
  rfl

/-- The region's second weight array is the second weight argument, for the same reason. -/
theorem w2_entry (c : Dev nD) :
    (V m c main_v6 : S256x128.Idx → EReal) = (m ((c : Thread nD τ).loc main_arg5) : S256x128.Idx → EReal) := by
  dsimp only [V, hostOps0]
  after_results
  rfl

end Cert.Mlp.Entry

end
-- ==== Proof.KernelResult.lean ====
/-
  The kernel's result as a function of the program's arguments. The run leaves the result array at the
  specification of the arrays the region finds; those are the node features and the two biases as launched, the
  two weight arguments (narrowed to bf16 by the host, which changes nothing on the extended reals) and the host's
  scatter-add of the edge features onto their source nodes. So the result is the specification of the arguments
  themselves, with the aggregated features that one scatter-add term.
-/
import proofs.«123262_j14499809591359_1_alg».proof.Proof.BlocksToArray
import proofs.«123262_j14499809591359_1_alg».proof.Proof.EntryArrays

noncomputable section

namespace Cert.Mlp

open Idealize.ShloMosaic

/-- The specification at equal operands is equal. -/
theorem mlpOut_congr {nf nf' agg agg' : (⟨2, ![50000, 128]⟩ : Shape).Idx → EReal} {W1 W1' : (⟨2, ![256, 256]⟩ : Shape).Idx → EReal}
    {b1 b1' : (⟨1, ![256]⟩ : Shape).Idx → EReal} {W2 W2' : (⟨2, ![256, 128]⟩ : Shape).Idx → EReal}
    {b2 b2' : (⟨1, ![128]⟩ : Shape).Idx → EReal}
    (h0 : nf = nf') (h1 : agg = agg') (h2 : W1 = W1') (h3 : b1 = b1') (h4 : W2 = W2') (h5 : b2 = b2') :
    mlpOut nf agg W1 b1 W2 b2 = mlpOut nf' agg' W1' b1' W2' b2' := by
  rw [h0, h1, h2, h3, h4, h5]

end Cert.Mlp

namespace Cert.Mlp.Kernel

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The specification of the arguments as launched on core `c`: what both programs are shown to leave in their result. -/
abbrev specOf (c : Dev nD) : FVec Ideal S50000x128 .f32 :=
  Cert.Mlp.mlpOut (m ((c : Thread nD τ).loc main_arg0))
    (Cert.Mlp.Entry.aggOf (m ((c : Thread nD τ).loc main_arg1)) (m ((c : Thread nD τ).loc main_arg2)))
    (m ((c : Thread nD τ).loc main_arg3)) (m ((c : Thread nD τ).loc main_arg4))
    (m ((c : Thread nD τ).loc main_arg5)) (m ((c : Thread nD τ).loc main_arg6))

/-- The specification of the region-entry arrays is the specification of the arguments. -/
theorem outArr_eq (c : Dev nD) : outArr m c = specOf m c :=
  Cert.Mlp.mlpOut_congr (V_main_arg0 m c) (Cert.Mlp.Entry.agg_entry m c) (Cert.Mlp.Entry.w1_entry m c)
    (V_main_arg4 m c) (Cert.Mlp.Entry.w2_entry m c) (V_main_arg6 m c)

/-- THE KERNEL'S RUN: every execution ends with the result array at the specification of the arguments and the
    arguments unchanged. -/
theorem run_spec : θ_run defs (onTc (τ := τ) (main (F := Ideal))) ⟨m, fun _ => 0, ρ⟩ fun r => ∀ c : Dev nD,
      r.2.mem ((c : Thread nD τ).loc main_v7) = specOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (outArr_eq m c), (h c).2⟩) (run m ρ)

end Cert.Mlp.Kernel

end
-- ==== Proof.lean ====
/-
  A graph layer's node update, in two programs, proved equal over the extended reals.

  Both programs first add every edge's 128 features onto the row of the edge's source node (one scatter-add from the
  zero array: the same operation on the same operands in both, so it is carried as one whole term and never
  opened), then join each node's own 128 features with its aggregated 128, and apply two affine maps with no
  nonlinearity between them:
      out[r, q] = (∑ h < 256, ((∑ k < 256, row_r[k] · W1[k, h]) + b1[h]) · W2[h, q]) + b2[q].
  The reference does this on whole arrays. The kernel does it on 25 blocks of 2000 nodes, with the matrix operands
  narrowed to bf16 and products accumulated from a zero accumulator; on the extended reals the narrowing is the
  identity and a product into zero is the bare sum, so each entry of each block is the same formula on the same
  numbers. No sum is regrouped and no factor moves across a sum: the precondition (finite inputs) is never opened.

  The modules: the formula and the two layout readings it needs (MlpSpec); the reference's run is the formula
  (RefIsSpec); the kernel body's stored value at an entry is the formula on the blocks (BodyAtIndex); the arrays
  the kernel's region finds (EntryArrays); each block is rows of its array, the blocks cover the result, so the
  kernel's run leaves the formula (BlocksToArray, KernelResult). Here the five claims are assembled. The three frames
  come from the generated frame runs and the reference's generated run; nothing was rewritten when the kernel was
  idealized, so the preservation claim is trivial.
-/
import proofs.«123262_j14499809591359_1_alg».proof.Defs
import proofs.«123262_j14499809591359_1_alg».proof.Proof.Gen.Kernel
import proofs.«123262_j14499809591359_1_alg».proof.Proof.Gen.Kernel.Skeleton
import proofs.«123262_j14499809591359_1_alg».proof.Proof.Gen.Kernel.Launch
import proofs.«123262_j14499809591359_1_alg».proof.Proof.Gen.Kernel.Points
import proofs.«123262_j14499809591359_1_alg».proof.Proof.Gen.Kernel.Frame
import proofs.«123262_j14499809591359_1_alg».proof.Proof.Gen.KernelIdeal
import proofs.«123262_j14499809591359_1_alg».proof.Proof.Gen.KernelIdeal.Skeleton
import proofs.«123262_j14499809591359_1_alg».proof.Proof.Gen.KernelIdeal.Launch
import proofs.«123262_j14499809591359_1_alg».proof.Proof.Gen.KernelIdeal.Points
import proofs.«123262_j14499809591359_1_alg».proof.Proof.Gen.KernelIdeal.Frame
import proofs.«123262_j14499809591359_1_alg».proof.Proof.Gen.ReferenceIdeal
import proofs.«123262_j14499809591359_1_alg».proof.Proof.Gen.Pre_finite_inputs
import proofs.«123262_j14499809591359_1_alg».proof.Proof.Gen.KernelIdeal.Value
import proofs.«123262_j14499809591359_1_alg».proof.Proof.Gen.ReferenceIdeal.Run
import proofs.«123262_j14499809591359_1_alg».proof.Proof.Gen.ReferenceIdeal.Read
import proofs.«123262_j14499809591359_1_alg».proof.Proof.RefIsSpec
import proofs.«123262_j14499809591359_1_alg».proof.Proof.KernelResult
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The two programs' scatter-adds are one term: the same dimension numbers, the same zero array, the same
    source-node row of the edge index, the same edge features. -/
theorem agg_same (x1 : (⟨Cert.ReferenceIdeal.S2x640000, .i32⟩ : BufTy).Contents (Elt Ideal))
    (x2 : (⟨Cert.ReferenceIdeal.S640000x128, .f32⟩ : BufTy).Contents (Elt Ideal)) :
    Cert.ReferenceIdeal.Read.val_main_v4 (F := Ideal) x1 x2 = Cert.Mlp.Entry.aggOf x1 x2 := rfl

/-- From memories that agree on the arguments both programs end with their result at the specification of those
    arguments: the kernel by its blocks, the reference by its operations read at an index. -/
theorem algebraic : Cert.algebraic_KernelIdeal_ReferenceIdeal := by
  intro m ρ m' ρ' _ hagree
  refine ⟨fun c => Cert.Mlp.Kernel.specOf m c, Cert.Mlp.Kernel.run_spec m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v13_eq, Cert.Mlp.Reference.result_eq, h0, h1, h2, h3, h4, h5, h6, agg_same]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
